-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S8x2048x1024 .f32) (main_arg1 : FVec F S8x4096x1024 .f32) (main_arg2 : FVec F S8x1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  main_v13
-- ==== Kernel.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x1024x4096, .f32⟩
  | .hbm, ⟨3, _⟩ => ⟨S8x2048x1024, .bf16⟩
  | .hbm, ⟨4, _⟩ => ⟨S8x4096x1024, .bf16⟩
  | .hbm, ⟨5, _⟩ => ⟨S8x1024x4096, .bf16⟩
  | .hbm, ⟨6, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .bf16 = 32 ∨ (Rect.block (s := S8x4096x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x4096.size a
  hwx0_2 : ∀ i : grid0.Coords, EltTy.bits .bf16 = 32 ∨ (Rect.block (s := S8x1024x4096) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x2048x1024.size a
  hwx0_3 : ∀ i : grid0.Coords, EltTy.bits .f32 = 32 ∨ (Rect.block (s := S8x2048x1024) S1x512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S8x2048x4096 : Shape := ⟨3, ![8, 2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x1024x4096, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x4096x1024_S8x2048x4096_2_2_1_1_0_0_wf : DotDims.WF S8x2048x1024 S8x4096x1024 S8x2048x4096 [2] [2] [1] [1] [0] [0]
  dot_S8x2048x4096_S8x1024x4096_S8x2048x1024_2_2_1_1_0_0_wf : DotDims.WF S8x2048x4096 S8x1024x4096 S8x2048x1024 [2] [2] [1] [1] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x1024x4096_S8x2048x1024_2_2_1_1_0_0 : DotDims S8x2048x4096 S8x1024x4096 S8x2048x1024 where
  lhsContracting := [2]
  rhsContracting := [2]
  lhsNonContracting := [1]
  rhsNonContracting := [1]
  lhsBatch := [0]
  rhsBatch := [0]
  wf := dot_S8x2048x4096_S8x1024x4096_S8x2048x1024_2_2_1_1_0_0_wf

class Facts : Prop extends Facts₀ where

variable [Facts]
-- ==== Proof.Pieces.lean ====
/-
  What one grid point leaves behind, as arithmetic.  The body keeps a running total in a scratch block
  of 512 x 1024 entries.  At a point it adds to the total one tile's contribution, computed from the
  point's three input blocks (the payload `k0_pay2`); at the first tile of a row block the total is
  first reset to the zero block (`k0_pay1`), and at the last tile the finished total is copied, with a
  leading unit axis added, into the output block (`k0_pay3`).  Each case's stored pieces, read back,
  are exactly these payloads of the blocks the point was given.
-/
import proofs.«179675_j35948876267749_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Ffn

open Cert.KernelIdeal Cert.KernelIdeal.Gen

variable {F : FTy → Type} [FloatOps F]

/-- A rank-2 block starts at the origin of its buffer. -/
theorem origin2 : (![0, 0] : Fin 2 → Nat) = fun _ => 0 := funext fun a => by fin_cases a <;> rfl
/-- A rank-3 block starts at the origin of its buffer. -/
theorem origin3 : (![0, 0, 0] : Fin 3 → Nat) = fun _ => 0 := funext fun a => by fin_cases a <;> rfl

/-- First tile of a row block: the total is reset to zero and the tile's contribution added to it. -/
theorem total_first (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x512x1024 .f32) (h6 : a6.IsWhole) (a7 : Memref sig .tc .vmem S512x1024 .f32) (h7 : a7.IsWhole) (hc0 : cond0_0 i) (hc1 : ¬cond0_1 i) (x0 : Vec F S1x512x1024 .bf16) (x1 : Vec F S1x1024x1024 .bf16) (x2 : Vec F S1x1024x1024 .bf16) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) origin2]
  simp only [View.readAt_eq_ld, h3.read_unread, h4.read_unread, h5.read_unread,
    View.readCov_unit_zero (S := S512x1024) _ origin2, View.ld_unit_zero (S := S1x512x1024) origin3,
    View.ld_unit_zero (S := S1x1024x1024) origin3, View.ld_unit_zero (S := S512x1024) origin2]

/-- A middle tile: the tile's contribution is added to the total the point before left. -/
theorem total_middle (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x512x1024 .f32) (h6 : a6.IsWhole) (a7 : Memref sig .tc .vmem S512x1024 .f32) (h7 : a7.IsWhole) (hc0 : ¬cond0_0 i) (hc1 : ¬cond0_1 i) (x0 : Vec F S1x512x1024 .bf16) (x1 : Vec F S1x1024x1024 .bf16) (x2 : Vec F S1x1024x1024 .bf16) (xs0 : Vec F S512x1024 .f32) :
    sout0_B_0 c i a3 h3 a4 h4 a5 h5 a6 h6 a7 h7 hc0 hc1 x0 x1 x2 xs0 = k0_pay2 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin2]
  simp only [View.readAt_eq_ld, h3.read_unread, h4.read_unread, h5.read_unread, h7.read_unread,
    View.ld_unit_zero (S := S1x512x1024) origin3,
    View.ld_unit_zero (S := S1x1024x1024) origin3, View.ld_unit_zero (S := S512x1024) origin2]

/-- The last tile: the same update of the total ... -/
theorem total_last (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x512x1024 .f32) (h6 : a6.IsWhole) (a7 : Memref sig .tc .vmem S512x1024 .f32) (h7 : a7.IsWhole) (hc0 : ¬cond0_0 i) (hc1 : cond0_1 i) (x0 : Vec F S1x512x1024 .bf16) (x1 : Vec F S1x1024x1024 .bf16) (x2 : Vec F S1x1024x1024 .bf16) (xs0 : Vec F S512x1024 .f32) :
    sout0_C_0 c i a3 h3 a4 h4 a5 h5 a6 h6 a7 h7 hc0 hc1 x0 x1 x2 xs0 = k0_pay2 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin2]
  simp only [View.readAt_eq_ld, h3.read_unread, h4.read_unread, h5.read_unread, h7.read_unread,
    View.ld_unit_zero (S := S1x512x1024) origin3,
    View.ld_unit_zero (S := S1x1024x1024) origin3, View.ld_unit_zero (S := S512x1024) origin2]

/-- ... and the output block is the finished total with a leading unit axis. -/
theorem block_last (c : Dev nD) (i : grid0.Coords) (a3 : Memref sig .tc .vmem S1x512x1024 .bf16) (h3 : a3.IsWhole) (a4 : Memref sig .tc .vmem S1x1024x1024 .bf16) (h4 : a4.IsWhole) (a5 : Memref sig .tc .vmem S1x1024x1024 .bf16) (h5 : a5.IsWhole) (a6 : Memref sig .tc .vmem S1x512x1024 .f32) (h6 : a6.IsWhole) (a7 : Memref sig .tc .vmem S512x1024 .f32) (h7 : a7.IsWhole) (hc0 : ¬cond0_0 i) (hc1 : cond0_1 i) (x0 : Vec F S1x512x1024 .bf16) (x1 : Vec F S1x1024x1024 .bf16) (x2 : Vec F S1x1024x1024 .bf16) (xs0 : Vec F S512x1024 .f32) :
    out0_C_3 c i a3 h3 a4 h4 a5 h5 a6 h6 a7 h7 hc0 hc1 x0 x1 x2 xs0 = k0_pay3 (k0_pay2 x0 x1 x2 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin3]
  simp only [View.readAt_eq_ld, h3.read_unread, h4.read_unread, h5.read_unread, h7.read_unread,
    View.readCov_unit_zero (S := S512x1024) _ origin2, View.ld_unit_zero (S := S1x512x1024) origin3,
    View.ld_unit_zero (S := S1x1024x1024) origin3, View.ld_unit_zero (S := S512x1024) origin2]

end Cert.KernelIdeal.Ffn

end
-- ==== Proof.Chain.lean ====
/-
  The running total along the grid.  The 128 grid points come in runs of four that share an expert and
  a block of token rows and visit the four tiles of the hidden axis in order.  The scratch block holds
  the running total: after the first point of a run it is the zero block plus that tile's contribution;
  after each later point it is what the point before left plus the new tile's contribution; and at the
  fourth point the output block is that point's total with a leading unit axis.
-/
import proofs.«179675_j35948876267749_1_alg».proof.Proof.Pieces

set_option maxRecDepth 16384

noncomputable section

open Idealize.ShloMosaic Idealize.ShloMosaic.TcCoe Idealize.SL.Sem

namespace Cert.KernelIdeal.Ffn

open Cert.KernelIdeal Cert.KernelIdeal.Gen

variable {F : FTy → Type} [FloatOps F]
variable (m : (ℓ : Loc nD τ sig) → Buf (Elt F) ℓ)

/-- The block of token rows a point is given. -/
abbrev tokBlk (c : Dev nD) (t : Fin cfg0.N) : Vec F S1x512x1024 .bf16 := iblk m c 0 t
/-- The block of first-layer rows (one tile of hidden units) a point is given. -/
abbrev w1Blk (c : Dev nD) (t : Fin cfg0.N) : Vec F S1x1024x1024 .bf16 := iblk m c 1 t
/-- The block of second-layer weights (the same tile of hidden units) a point is given. -/
abbrev w2Blk (c : Dev nD) (t : Fin cfg0.N) : Vec F S1x1024x1024 .bf16 := iblk m c 2 t
/-- The running total the scratch block holds after point `n`. -/
abbrev totalAt (c : Dev nD) (n : ℕ) (h : n < cfg0.N) : Vec F S512x1024 .f32 := (outsAt0 m c n h).2

/-- After the first point of a run: zero plus the first tile's contribution. -/
theorem totalAt_first (c : Dev nD) (t : Fin cfg0.N) (h0 : t.val % 4 = 0) :
    totalAt m c t.val t.isLt = k0_pay2 (tokBlk m c t) (w1Blk m c t) (w2Blk m c t) (k0_pay1 (F := F)) := by
  have h1 : ¬t.val % 4 = 3 := by omega
  show (outsAt0 m c t.val t.isLt).2 = _
  rw [outsAt0_A m c t h0 h1]
  dsimp only
  exact total_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a later point of a run: the total the point before left plus this tile's contribution. -/
theorem totalAt_later (c : Dev nD) (t : Fin cfg0.N) (h0 : ¬t.val % 4 = 0) :
    totalAt m c t.val t.isLt
      = k0_pay2 (tokBlk m c t) (w1Blk m c t) (w2Blk m c t) (totalAt m c (t.val - 1) (Nat.lt_of_le_of_lt (Nat.sub_le _ _) t.isLt)) := by
  by_cases h1 : t.val % 4 = 3
  · show (outsAt0 m c t.val t.isLt).2 = _
    rw [outsAt0_C m c t h0 h1]
    dsimp only
    exact total_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · show (outsAt0 m c t.val t.isLt).2 = _
    rw [outsAt0_B m c t h0 h1]
    dsimp only
    exact total_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last point of a run the output block is the finished total with a leading unit axis. -/
theorem blockAt_last (c : Dev nD) (t : Fin cfg0.N) (h3 : t.val % 4 = 3) :
    (outsAt0 m c t.val t.isLt).1 = k0_pay3 (totalAt m c t.val t.isLt) := by
  have h0 : ¬t.val % 4 = 0 := by omega
  rw [totalAt_later m c t h0]
  rw [outsAt0_C m c t h0 h3]
  dsimp only
  exact block_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2

end Cert.KernelIdeal.Ffn

end
-- ==== Proof.Payload.lean ====
/-
  One tile's arithmetic, read entry by entry over the extended reals.  At a grid point the body holds a
  block of 512 token rows by 1024 input features, a block of 1024 first-layer rows (one per hidden unit
  of the tile) by 1024 input features, and a block of 1024 output features by 1024 hidden units of the
  tile.  It forms the pre-activations (tokens times first-layer rows, summed over input features),
  rectifies them against zero, multiplies by the second-layer block (summed over the tile's hidden
  units) and adds the result to the running total.  Both products go into a zero block, so each is the
  plain sum of products; the change to the 16-bit format is the identity on extended reals.
-/
import proofs.«179675_j35948876267749_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Ffn

open Cert.KernelIdeal Cert.KernelIdeal.Gen

/-- Both products of the body contract the second axis of each operand: the left operand is read at
    (row of the result, contracted entry) ... -/
theorem lhs_axis0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_axis1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- ... and the right operand at (column of the result, contracted entry). -/
theorem rhs_axis0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_axis1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- A product into the zero block, at entry (p, q): the sum over the contracted entry `k` of the left
    operand at (p, k) times the right operand at (q, k). -/
theorem product_apply {φ₁ φ₂ : FTy} (l : FVec Ideal S512x1024 φ₁) (r : FVec Ideal S1024x1024 φ₂) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  refine (Ideal.matmul_constant_zero_apply dot_S512x1024_S1024x1024_S512x1024_1_1_0_0_n_n none l r (ix2 p q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- One tile's update of the running total, at entry (p, q): the total there, plus the sum over the
    tile's hidden entries `k` of the rectified pre-activation -- the larger of zero and the sum over the
    input features `j` of token row `p` times first-layer row `k` -- times the second-layer weight from
    hidden entry `k` to output feature `q`.  (Narrowing to the 16-bit format changes no value here.) -/
theorem tile_apply (x0 : Vec Ideal S1x512x1024 .bf16) (x1 x2 : Vec Ideal S1x1024x1024 .bf16) (acc : Vec Ideal S512x1024 .f32) (p : Fin 512) (q : Fin 1024) :
    k0_pay2 (F := Ideal) x0 x1 x2 acc (ix2 p q)
      = acc (ix2 p q) + ∑ k : Fin 1024, max (∑ j : Fin 1024, x0 (ix3 (0 : Fin 1) p j) * x1 (ix3 (0 : Fin 1) k j)) (Ideal.ofBits .f32 0x00000000#32) * x2 (ix3 (0 : Fin 1) q k) := by
  unfold k0_pay2
  rw [shapeCast_self]
  refine (addf_apply _ _ _).trans ?_
  refine congrArg (acc (ix2 p q) + ·) ?_
  refine (product_apply _ _ p q).trans ?_
  refine Finset.sum_congr rfl fun k _ => ?_
  refine congrArg₂ (· * ·) ?_ (shapeCast_1ab_ab_apply x2 _ q k)
  refine (truncf_apply (ψ := .bf16) _ bitsLt_bf16_f32 _).trans ?_
  refine (maximumf_apply _ _ _).trans ?_
  refine congrArg₂ max ?_ rfl
  refine (product_apply _ _ p k).trans ?_
  refine Finset.sum_congr rfl fun j _ => ?_
  exact congrArg₂ (· * ·) (shapeCast_1ab_ab_apply x0 _ p j) (shapeCast_1ab_ab_apply x1 _ k j)

/-- The reset block is zero everywhere. -/
theorem reset_apply (i : S512x1024.Idx) : k0_pay1 (F := Ideal) i = 0 := by
  unfold k0_pay1
  rw [shapeCast_self]
  exact Ideal.ofBits_zero_f32

/-- The output block is the total with a leading unit axis: entry (u, p, q) is the total's entry (p, q). -/
theorem lifted_apply (s : Vec Ideal S512x1024 .f32) (u : Fin 1) (p : Fin 512) (q : Fin 1024) :
    k0_pay3 (F := Ideal) s (ix3 u p q) = s (ix2 p q) := by
  unfold k0_pay3
  exact shapeCast_ab_1ab_apply s _ u p q

end Cert.KernelIdeal.Ffn

end
-- ==== Proof.Tiles.lean ====
/-
  The hidden axis in tiles.  The feed-forward layer sums over a hidden axis of 4096 entries; the kernel
  visits it in four tiles of 1024 and adds each tile's partial sum to a running total that starts at
  zero.  Entry `k` of tile `h` is entry `1024 * h + k` of the axis.  Over any commutative additive
  monoid the whole sum is the total built tile by tile: only commutativity and associativity of `+`
  are used, so the law holds on the extended reals at every input, infinite ones included.
-/
import Idealize.ShloMosaic.Lib.ValueIdx

namespace Cert.Ffn

open Finset

/-- Entry `k` of tile `h` of the hidden axis. -/
def tileIx (h : Fin 4) (k : Fin 1024) : Fin 4096 := ⟨1024 * h.val + k.val, by omega⟩

@[simp] theorem tileIx_val (h : Fin 4) (k : Fin 1024) : (tileIx h k).val = 1024 * h.val + k.val := rfl

/-- A sum over the hidden axis is the sum over the tiles of each tile's sum. -/
theorem sum_tiles {M : Type*} [AddCommMonoid M] (f : Fin 4096 → M) :
    ∑ H : Fin 4096, f H = ∑ h : Fin 4, ∑ k : Fin 1024, f (tileIx h k) := by
  rw [← Equiv.sum_comp (finProdFinEquiv : Fin 4 × Fin 1024 ≃ Fin 4096) f, Fintype.sum_prod_type]
  refine Finset.sum_congr rfl fun h _ => Finset.sum_congr rfl fun k _ => ?_
  congr 1
  apply Fin.ext
  show k.val + 1024 * h.val = 1024 * h.val + k.val
  omega

/-- The running total after tile `n`: zero plus tile 0, then one more tile's sum at each step. -/
def runTotal {M : Type*} [AddCommMonoid M] (g : Fin 4 → M) : (n : ℕ) → n < 4 → M
  | 0, h => 0 + g ⟨0, h⟩
  | n + 1, h => runTotal g n (Nat.lt_of_succ_lt h) + g ⟨n + 1, h⟩

/-- After the last tile the running total is the sum of the four tiles. -/
theorem runTotal_last {M : Type*} [AddCommMonoid M] (g : Fin 4 → M) :
    runTotal g 3 (by omega) = ∑ h : Fin 4, g h := by
  simp only [runTotal, Fin.sum_univ_four, zero_add]
  rfl

/-- The total built tile by tile is the sum over the whole hidden axis. -/
theorem runTotal_tiles {M : Type*} [AddCommMonoid M] (f : Fin 4096 → M) :
    runTotal (fun h => ∑ k : Fin 1024, f (tileIx h k)) 3 (by omega) = ∑ H : Fin 4096, f H := by
  rw [runTotal_last, sum_tiles]

end Cert.Ffn
-- ==== Proof.Spec.lean ====
/-
  The layer as one function of its three arrays.  For expert `e`, token row `r` and output feature `d`,
  hidden unit `H` contributes the rectified pre-activation

      max (sum over input features j of  X[e, r, j] * W1[e, H, j])  0

  times the second-layer weight `W2[e, d, H]`, and the layer's value is the sum of these contributions
  over all 4096 hidden units.  Cutting the hidden axis into four tiles and adding tile after tile to a
  total that starts at zero gives the same value: a regrouping of one finite sum.
-/
import proofs.«179675_j35948876267749_1_alg».proof.Proof.Tiles
import Idealize.ShloMosaic.Lib.ValueIdx
import Idealize.ShloMosaic.PureOps.Ideal.Laws

noncomputable section

namespace Cert.Ffn

open Idealize.ShloMosaic Idealize.ShloMosaic.ValueIdx

/-- Tokens: expert, token row, input feature. -/
abbrev Tokens : Shape := ⟨3, ![8, 2048, 1024]⟩
/-- First-layer weights: expert, hidden unit, input feature. -/
abbrev First : Shape := ⟨3, ![8, 4096, 1024]⟩
/-- Second-layer weights: expert, output feature, hidden unit. -/
abbrev Second : Shape := ⟨3, ![8, 1024, 4096]⟩

/-- Hidden unit `H`'s contribution to output feature `d` of token row `r` of expert `e`. -/
def unitTerm (X : Tokens.Idx → EReal) (W1 : First.Idx → EReal) (W2 : Second.Idx → EReal)
    (e : Fin 8) (r : Fin 2048) (d : Fin 1024) (H : Fin 4096) : EReal :=
  max (∑ j : Fin 1024, X (ix3 e r j) * W1 (ix3 e H j)) (Ideal.ofBits .f32 0x00000000#32) * W2 (ix3 e d H)

/-- The layer's value at (e, r, d): all hidden units' contributions. -/
def ffn (X : Tokens.Idx → EReal) (W1 : First.Idx → EReal) (W2 : Second.Idx → EReal)
    (e : Fin 8) (r : Fin 2048) (d : Fin 1024) : EReal :=
  ∑ H : Fin 4096, unitTerm X W1 W2 e r d H

/-- The layer as a whole array. -/
def layer (X : Tokens.Idx → EReal) (W1 : First.Idx → EReal) (W2 : Second.Idx → EReal) : Tokens.Idx → EReal :=
  fun i => ffn X W1 W2 ⟨(i 0).val, (i 0).isLt⟩ ⟨(i 1).val, (i 1).isLt⟩ ⟨(i 2).val, (i 2).isLt⟩

theorem layer_ix3 (X : Tokens.Idx → EReal) (W1 : First.Idx → EReal) (W2 : Second.Idx → EReal)
    (e : Fin 8) (r : Fin 2048) (d : Fin 1024) : layer X W1 W2 (ix3 e r d) = ffn X W1 W2 e r d := rfl

/-- Token row `p` of row block `ib` (blocks of 512 rows). -/
def rowOf (ib : Fin 4) (p : Fin 512) : Fin 2048 := ⟨512 * ib.val + p.val, by omega⟩

@[simp] theorem rowOf_val (ib : Fin 4) (p : Fin 512) : (rowOf ib p).val = 512 * ib.val + p.val := rfl

/-- One tile's part of the layer's value: its 1024 hidden units' contributions. -/
def tilePart (X : Tokens.Idx → EReal) (W1 : First.Idx → EReal) (W2 : Second.Idx → EReal)
    (e : Fin 8) (r : Fin 2048) (d : Fin 1024) (h : Fin 4) : EReal :=
  ∑ k : Fin 1024, unitTerm X W1 W2 e r d (tileIx h k)

/-- Adding the four tiles' parts, one after another, to a total that starts at zero gives the layer's value. -/
theorem ffn_tiles (X : Tokens.Idx → EReal) (W1 : First.Idx → EReal) (W2 : Second.Idx → EReal)
    (e : Fin 8) (r : Fin 2048) (d : Fin 1024) :
    runTotal (tilePart X W1 W2 e r d) 3 (by omega) = ffn X W1 W2 e r d :=
  runTotal_tiles (unitTerm X W1 W2 e r d)

end Cert.Ffn

end
-- ==== Proof.Blocks.lean ====
/-
  From the blocks to the whole array.  Grid point t = 16 * expert + 4 * row block + tile is given the
  expert's token rows 512 * (row block) .. + 511, the first-layer rows of the tile's 1024 hidden units and
  the second-layer weights from those hidden units.  So along a run of four points the scratch block
  holds, entry by entry, the layer's running total over the tiles visited so far, and the fourth point
  writes back the finished sums: the expert's 512 token rows of the layer, at all 1024 output features.
  The 32 runs' blocks tile the output array, so it ends holding the layer of the three arrays the region
  was given, which are the arguments themselves (narrowing to 16 bits is the identity on extended reals).
-/
import proofs.«179675_j35948876267749_1_alg».proof.Proof.Chain
import proofs.«179675_j35948876267749_1_alg».proof.Proof.Payload
import proofs.«179675_j35948876267749_1_alg».proof.Proof.Spec
import proofs.«179675_j35948876267749_1_alg».proof.Proof.Gen.KernelIdeal.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Ffn

open Cert.KernelIdeal Cert.KernelIdeal.Gen Cert.Ffn

variable (m : (ℓ : Loc nD τ sig) → Buf (Elt Ideal) ℓ) (ρ : Dev nD → PrngReg)

/-- The token array as the kernel region finds it. -/
abbrev tokArr (c : Dev nD) : Tokens.Idx → EReal := V m c main_v0
/-- The first-layer weights as the kernel region finds them. -/
abbrev w1Arr (c : Dev nD) : First.Idx → EReal := V m c main_v1
/-- The second-layer weights as the kernel region finds them. -/
abbrev w2Arr (c : Dev nD) : Second.Idx → EReal := V m c main_v2

/-- Where each window's block sits at grid point `t` = 16 * expert + 4 * row block + tile: tokens and output at
    (expert, row block, 0), first-layer rows at (expert, tile, 0), second-layer weights at (expert, 0, tile). -/
theorem index_facts : ∀ t : Fin cfg0.N,
    win0_0.index t (0 : Fin 3) = t.val / 16 ∧ win0_0.index t (1 : Fin 3) = (t.val / 4) % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = 0 ∧ win0_2.index t (2 : Fin 3) = t.val % 4
    ∧ win0_3.index t (0 : Fin 3) = t.val / 16 ∧ win0_3.index t (1 : Fin 3) = (t.val / 4) % 4 ∧ win0_3.index t (2 : Fin 3) = 0 :=
  (by decide +kernel : ∀ t : Fin grid0.N, _)

/-- The token block at a point: rows of row block `ib` of expert `e`. -/
theorem tok_read (c : Dev nD) (s : Fin cfg0.N) (e : Fin 8) (ib : Fin 4) (he : s.val / 16 = e.val) (hi : (s.val / 4) % 4 = ib.val)
    (p : Fin 512) (j : Fin 1024) :
    tokBlk m c s (ix3 (0 : Fin 1) p j) = tokArr m c (ix3 e (rowOf ib p) j) := by
  obtain ⟨f0, f1, f2, -⟩ := index_facts s
  show V m c main_v0 (((cfg0.win 0).blk s).view.emb (ix3 (0 : Fin 1) p j)) = V m c main_v0 (ix3 e (rowOf ib p) j)
  refine congrArg _ (funext fun a => Fin.ext ?_)
  match a with
  | ⟨0, _⟩ => show win0_0.index s (0 : Fin 3) * 1 + 1 * 0 = e.val; omega
  | ⟨1, _⟩ => show win0_0.index s (1 : Fin 3) * 512 + 1 * p.val = 512 * ib.val + p.val; omega
  | ⟨2, _⟩ => show win0_0.index s (2 : Fin 3) * 1024 + 1 * j.val = j.val; omega

/-- The first-layer block at a point: the rows of the hidden units of tile `h` of expert `e`. -/
theorem w1_read (c : Dev nD) (s : Fin cfg0.N) (e : Fin 8) (h : Fin 4) (he : s.val / 16 = e.val) (hh : s.val % 4 = h.val)
    (k : Fin 1024) (j : Fin 1024) :
    w1Blk m c s (ix3 (0 : Fin 1) k j) = w1Arr m c (ix3 e (tileIx h k) j) := by
  obtain ⟨-, -, -, f0, f1, f2, -⟩ := index_facts s
  show V m c main_v1 (((cfg0.win 1).blk s).view.emb (ix3 (0 : Fin 1) k j)) = V m c main_v1 (ix3 e (tileIx h k) j)
  refine congrArg _ (funext fun a => Fin.ext ?_)
  match a with
  | ⟨0, _⟩ => show win0_1.index s (0 : Fin 3) * 1 + 1 * 0 = e.val; omega
  | ⟨1, _⟩ => show win0_1.index s (1 : Fin 3) * 1024 + 1 * k.val = 1024 * h.val + k.val; omega
  | ⟨2, _⟩ => show win0_1.index s (2 : Fin 3) * 1024 + 1 * j.val = j.val; omega

/-- The second-layer block at a point: the weights from the hidden units of tile `h` of expert `e`. -/
theorem w2_read (c : Dev nD) (s : Fin cfg0.N) (e : Fin 8) (h : Fin 4) (he : s.val / 16 = e.val) (hh : s.val % 4 = h.val)
    (q : Fin 1024) (k : Fin 1024) :
    w2Blk m c s (ix3 (0 : Fin 1) q k) = w2Arr m c (ix3 e q (tileIx h k)) := by
  obtain ⟨-, -, -, -, -, -, f0, f1, f2, -⟩ := index_facts s
  show V m c main_v2 (((cfg0.win 2).blk s).view.emb (ix3 (0 : Fin 1) q k)) = V m c main_v2 (ix3 e q (tileIx h k))
  refine congrArg _ (funext fun a => Fin.ext ?_)
  match a with
  | ⟨0, _⟩ => show win0_2.index s (0 : Fin 3) * 1 + 1 * 0 = e.val; omega
  | ⟨1, _⟩ => show win0_2.index s (1 : Fin 3) * 1024 + 1 * q.val = q.val; omega
  | ⟨2, _⟩ => show win0_2.index s (2 : Fin 3) * 1024 + 1 * k.val = 1024 * h.val + k.val; omega

/-- A point's update of the running total, in the arrays' own coordinates: the total plus tile `h`'s part
    of the layer's value at (expert, token row, output feature). -/
theorem tile_at (c : Dev nD) (s : Fin cfg0.N) (e : Fin 8) (ib h : Fin 4) (he : s.val / 16 = e.val) (hi : (s.val / 4) % 4 = ib.val)
    (hh : s.val % 4 = h.val) (acc : Vec Ideal S512x1024 .f32) (p : Fin 512) (q : Fin 1024) :
    k0_pay2 (F := Ideal) (tokBlk m c s) (w1Blk m c s) (w2Blk m c s) acc (ix2 p q)
      = acc (ix2 p q) + tilePart (tokArr m c) (w1Arr m c) (w2Arr m c) e (rowOf ib p) q h := by
  refine (tile_apply (tokBlk m c s) (w1Blk m c s) (w2Blk m c s) acc p q).trans ?_
  refine congrArg (acc (ix2 p q) + ·) ?_
  unfold tilePart
  refine Finset.sum_congr rfl fun k _ => ?_
  unfold unitTerm
  refine congrArg₂ (· * ·) (congrArg (max · _) (Finset.sum_congr rfl fun j _ => ?_)) (w2_read m c s e h he hh q k)
  exact congrArg₂ (· * ·) (tok_read m c s e ib he hi p j) (w1_read m c s e h he hh k j)

/-- The running total depends on the point's number only. -/
theorem totalAt_congr (c : Dev nD) {n n' : ℕ} (e : n = n') (h : n < cfg0.N) (h' : n' < cfg0.N) :
    totalAt m c n h = totalAt m c n' h' := by subst e; rfl

/-- Along a run of four points starting at `b`, the running total after the run's point number `n` is, entry by
    entry, the layer's running total after tile `n`. -/
theorem total_run (c : Dev nD) (b : ℕ) (hb : b % 4 = 0) (hlt : b + 3 < cfg0.N) (e : Fin 8) (ib : Fin 4)
    (he : b / 16 = e.val) (hi : (b / 4) % 4 = ib.val) (p : Fin 512) (q : Fin 1024) :
    ∀ (n : ℕ) (hn : n < 4), totalAt m c (b + n) (by omega) (ix2 p q)
      = runTotal (tilePart (tokArr m c) (w1Arr m c) (w2Arr m c) e (rowOf ib p) q) n hn
  | 0, hn => by
    have h1 := totalAt_first m c ⟨b, by omega⟩ hb
    have h2 : totalAt m c (b + 0) (by omega) = totalAt m c b (by omega) := totalAt_congr m c (by omega) _ _
    rw [h2, h1]
    refine (tile_at m c ⟨b, by omega⟩ e ib ⟨0, hn⟩ he hi hb (k0_pay1 (F := Ideal)) p q).trans ?_
    rw [reset_apply]
    rfl
  | n + 1, hn => by
    have hs : ¬(b + (n + 1)) % 4 = 0 := by omega
    have h1 := totalAt_later m c ⟨b + (n + 1), by omega⟩ hs
    have h2 : totalAt m c ((⟨b + (n + 1), by omega⟩ : Fin cfg0.N).val - 1) (Nat.lt_of_le_of_lt (Nat.sub_le _ _) (⟨b + (n + 1), by omega⟩ : Fin cfg0.N).isLt)
        = totalAt m c (b + n) (by omega) := totalAt_congr m c (by dsimp only; omega) _ _
    rw [h2] at h1
    rw [show totalAt m c (b + (n + 1)) (by omega) = _ from h1]
    refine (tile_at m c ⟨b + (n + 1), by omega⟩ e ib ⟨n + 1, hn⟩ (by dsimp only; omega) (by dsimp only; omega) (by dsimp only; omega) _ p q).trans ?_
    rw [total_run c b hb hlt e ib he hi p q n (by omega)]
    rfl

/-- At the last point of a run the output block holds, at (·, p, q), the layer's value at the run's expert, token row
    `p` of the run's row block, and output feature `q`. -/
theorem out_at (c : Dev nD) (t : Fin cfg0.N) (h3 : t.val % 4 = 3) (e : Fin 8) (ib : Fin 4) (he : t.val / 16 = e.val)
    (hi : (t.val / 4) % 4 = ib.val) (u : Fin 1) (p : Fin 512) (q : Fin 1024) :
    (outsAt0 m c t.val t.isLt).1 (ix3 u p q) = ffn (tokArr m c) (w1Arr m c) (w2Arr m c) e (rowOf ib p) q := by
  have hN : cfg0.N = 128 := N_0
  have ht := t.isLt
  rw [blockAt_last m c t h3]
  refine (lifted_apply _ u p q).trans ?_
  rw [← ffn_tiles]
  have hr := total_run m c (t.val - 3) (by omega) (by omega) e ib (by omega) (by omega) p q 3 (by omega)
  rw [← hr]
  exact congrFun (totalAt_congr m c (by omega) _ _) _

/-- What a flushing point writes back is its block of the layer: the fourth point of a run writes, for its expert
    and its 512 token rows, the layer's value at every output feature. -/
theorem flushed_eq (c : Dev nD) (t : Fin cfg0.N) (hf : (cfg0.win 3).flush t = true) :
    (dats m 0 c).flushed 3 t
      = ((cfg0.win 3).blk t).view.read (Elt Ideal) (layer (tokArr m c) (w1Arr m c) (w2Arr m c)) := by
  have h3 : t.val % 4 = 3 := (flush0_3 t).mp hf
  have hN : cfg0.N = 128 := N_0
  have ht := t.isLt
  obtain ⟨-, -, -, -, -, -, -, -, -, f0, f1, f2⟩ := index_facts t
  rw [Value.flushed3]
  funext y
  obtain ⟨u, p, q, rfl⟩ : ∃ (u : Fin 1) (p : Fin 512) (q : Fin 1024), y = ix3 u p q := ⟨y 0, y 1, y 2, eq_ix3 y⟩
  show (outsAt0 m c t.val t.isLt).1 (ix3 u p q)
    = layer (tokArr m c) (w1Arr m c) (w2Arr m c) (((cfg0.win 3).blk t).view.emb (ix3 u p q))
  rw [out_at m c t h3 ⟨t.val / 16, by omega⟩ ⟨(t.val / 4) % 4, by omega⟩ rfl rfl u p q]
  have hemb : ((cfg0.win 3).blk t).view.emb (ix3 u p q)
      = ix3 (⟨t.val / 16, by omega⟩ : Fin 8) (rowOf ⟨(t.val / 4) % 4, by omega⟩ p) q := by
    refine funext fun a => Fin.ext ?_
    have hu : u.val = 0 := by omega
    match a with
    | ⟨0, _⟩ => show win0_3.index t (0 : Fin 3) * 1 + 1 * u.val = t.val / 16; omega
    | ⟨1, _⟩ => show win0_3.index t (1 : Fin 3) * 512 + 1 * p.val = 512 * ((t.val / 4) % 4) + p.val; omega
    | ⟨2, _⟩ => show win0_3.index t (2 : Fin 3) * 1024 + 1 * q.val = q.val; omega
  rw [hemb, layer_ix3]

/-- An entry of the output array lies in a point's block iff each coordinate lies in the block's range. -/
theorem mem_blk (t : Fin cfg0.N) (i : S8x2048x1024.Idx) :
    i ∈ ((cfg0.win 3).blk t).view.set
      ↔ ∀ a : Fin 3, win0_3.index t a * S1x512x1024.size a ≤ (i a).val
          ∧ (i a).val < win0_3.index t a * S1x512x1024.size a + S1x512x1024.size a := by
  show i ∈ ((View.whole main_v3).slice (win0_3.rect t)).set ↔ _
  rw [View.set_slice_whole, Rect.mem_set_unit]
  exact Iff.rfl

/-- Every entry of the output array is written: entry (e, r, d) by the fourth point of the run of expert `e` and row
    block `r / 512`. -/
theorem covered (i : S8x2048x1024.Idx) :
    ∃ t : Fin cfg0.N, (cfg0.win 3).flush t = true ∧ i ∈ ((cfg0.win 3).blk t).view.set := by
  have hN : cfg0.N = 128 := N_0
  have h0 : (i 0).val < 8 := (i 0).isLt
  have h1 : (i 1).val < 2048 := (i 1).isLt
  have h2 : (i 2).val < 1024 := (i 2).isLt
  have hlt : 16 * (i 0).val + 4 * ((i 1).val / 512) + 3 < cfg0.N := by omega
  obtain ⟨-, -, -, -, -, -, -, -, -, f0, f1, f2⟩ := index_facts ⟨16 * (i 0).val + 4 * ((i 1).val / 512) + 3, hlt⟩
  dsimp only at f0 f1 f2
  refine ⟨⟨16 * (i 0).val + 4 * ((i 1).val / 512) + 3, hlt⟩, (flush0_3 _).mpr (by dsimp only; omega), ?_⟩
  rw [mem_blk]
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 512 ≤ (i 1).val ∧ (i 1).val < win0_3.index _ (1 : Fin 3) * 512 + 512
    omega
  | ⟨2, _⟩ =>
    show win0_3.index _ (2 : Fin 3) * 1024 ≤ (i 2).val ∧ (i 2).val < win0_3.index _ (2 : Fin 3) * 1024 + 1024
    omega

/-- So the output array ends holding the layer of the arrays the region found. -/
theorem final (c : Dev nD) :
    (dats m 0 c).arrAt 3 cfg0.N = layer (tokArr m c) (w1Arr m c) (w2Arr m c) :=
  (dats m 0 c).arrAt_eq_of_cover 3 (layer (tokArr m c) (w1Arr m c) (w2Arr m c)) (flushed_eq m c) covered

/-- The region finds each argument narrowed to the 16-bit format, which over the extended reals is the argument. -/
theorem tokArr_eq (c : Dev nD) : tokArr m c = (m ((c : Thread nD τ).loc main_arg0) : Tokens.Idx → EReal) := by
  show (V m c main_v0 : S8x2048x1024.Idx → EReal) = _
  dsimp only [V, hostOps0]; after_results; rfl
theorem w1Arr_eq (c : Dev nD) : w1Arr m c = (m ((c : Thread nD τ).loc main_arg1) : First.Idx → EReal) := by
  show (V m c main_v1 : S8x4096x1024.Idx → EReal) = _
  dsimp only [V, hostOps0]; after_results; rfl
theorem w2Arr_eq (c : Dev nD) : w2Arr m c = (m ((c : Thread nD τ).loc main_arg2) : Second.Idx → EReal) := by
  show (V m c main_v2 : S8x1024x4096.Idx → EReal) = _
  dsimp only [V, hostOps0]; after_results; rfl

/-- The kernel's run: its result array ends holding the layer of its three arguments, which end unchanged. -/
theorem run : θ_run defs (onTc (τ := τ) (main (F := Ideal))) ⟨m, fun _ => 0, ρ⟩ fun r => ∀ c : Dev nD,
      r.2.mem ((c : Thread nD τ).loc main_v3)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [tokArr_eq, w1Arr_eq, w2Arr_eq])), (h c).2⟩)
    (Value.run_blocks m ρ)

end Cert.KernelIdeal.Ffn

end
-- ==== Proof.RefValue.lean ====
/-
  The reference computes the layer.  Its first product gives the pre-activation of every hidden unit
  (tokens times first-layer rows, summed over the input features), the maximum with zero rectifies it,
  and its second product sums rectified pre-activation times second-layer weight over all 4096 hidden
  units: entry by entry this is the layer's value as specified.
-/
import proofs.«179675_j35948876267749_1_alg».proof.Proof.Gen.ReferenceIdeal.Read
import proofs.«179675_j35948876267749_1_alg».proof.Proof.Spec

noncomputable section

open Idealize.ShloMosaic Idealize.ShloMosaic.TcCoe Idealize.SL.Sem Idealize.ShloMosaic.ValueIdx

namespace Cert.ReferenceIdeal.Ffn

open Cert.ReferenceIdeal Cert.ReferenceIdeal.Gen Cert.ReferenceIdeal.Read Cert.Ffn

/-- The second product reads the rectified pre-activations at (expert, token row, hidden unit) ... -/
theorem second_left (i : S8x2048x1024.Idx) (H : Fin 4096) :
    lidx_main_v2 i H = ix3 (⟨(i 0).val, (i 0).isLt⟩ : Fin 8) (⟨(i 1).val, (i 1).isLt⟩ : Fin 2048) H :=
  funext fun a => by match a with | ⟨0, _⟩ => rfl | ⟨1, _⟩ => rfl | ⟨2, _⟩ => rfl
/-- ... and the second-layer weights at (expert, output feature, hidden unit). -/
theorem second_right (i : S8x2048x1024.Idx) (H : Fin 4096) :
    ridx_main_v2 i H = ix3 (⟨(i 0).val, (i 0).isLt⟩ : Fin 8) (⟨(i 2).val, (i 2).isLt⟩ : Fin 1024) H :=
  funext fun a => by match a with | ⟨0, _⟩ => rfl | ⟨1, _⟩ => rfl | ⟨2, _⟩ => rfl
/-- The first product reads the tokens at (expert, token row, input feature) ... -/
theorem first_left (e : Fin 8) (r : Fin 2048) (H : Fin 4096) (j : Fin 1024) :
    lidx_main_v0 (ix3 e r H) j = ix3 e r j :=
  funext fun a => by match a with | ⟨0, _⟩ => rfl | ⟨1, _⟩ => rfl | ⟨2, _⟩ => rfl
/-- ... and the first-layer weights at (expert, hidden unit, input feature). -/
theorem first_right (e : Fin 8) (r : Fin 2048) (H : Fin 4096) (j : Fin 1024) :
    ridx_main_v0 (ix3 e r H) j = ix3 e H j :=
  funext fun a => by match a with | ⟨0, _⟩ => rfl | ⟨1, _⟩ => rfl | ⟨2, _⟩ => rfl

/-- The reference's result, as a function of its three arguments, is the layer. -/
theorem reference_is_layer (x0 : Tokens.Idx → EReal) (x1 : First.Idx → EReal) (x2 : Second.Idx → EReal) :
    val_main_v2 (F := Ideal) x0 x1 x2 = layer x0 x1 x2 := by
  funext i
  rw [val_main_v2_apply]
  unfold layer ffn
  refine Finset.sum_congr rfl fun H _ => ?_
  unfold unitTerm
  rw [second_left, second_right, val_main_v1_apply, val_main_v0_apply, val_main_call0_v0_apply, val_main_call0_cst_apply]
  simp only [first_left, first_right]
  rfl

end Cert.ReferenceIdeal.Ffn

end
-- ==== Proof.lean ====
/-
  A grouped two-layer feed-forward network: for each of 8 experts, 2048 token rows of 1024 input features
  are multiplied by a first layer of 4096 hidden units, rectified (maximum with zero), and multiplied by a
  second layer back to 1024 output features.  The reference does this with two whole products.  The kernel
  walks a grid of 8 experts x 4 blocks of 512 token rows x 4 tiles of 1024 hidden units; at each point it
  forms the tile's rectified pre-activations and adds their product with the tile's second-layer weights
  to a running total that is reset to zero at a run's first tile and written out at its last.

  Over the extended reals both programs compute, at expert e, token row r and output feature d,

      sum over hidden units H of   max (sum over j of X[e,r,j] * W1[e,H,j]) 0  *  W2[e,d,H].

  The kernel's value is this sum regrouped into four tiles and added up in order from zero, which is the
  same sum because addition of extended reals is commutative and associative; no other law is used, so
  the inputs' finiteness is not needed.  Narrowing to the 16-bit format is the identity there, and each
  product into a zero block is the plain sum of products.  No operation of the kernel is replaced when it
  is read over the extended reals: the idealized kernel is the kernel's own text at those values.
-/
import proofs.«179675_j35948876267749_1_alg».proof.Defs
import proofs.«179675_j35948876267749_1_alg».proof.Proof.Gen.Kernel
import proofs.«179675_j35948876267749_1_alg».proof.Proof.Gen.Kernel.Skeleton
import proofs.«179675_j35948876267749_1_alg».proof.Proof.Gen.Kernel.Launch
import proofs.«179675_j35948876267749_1_alg».proof.Proof.Gen.Kernel.Points
import proofs.«179675_j35948876267749_1_alg».proof.Proof.Gen.Kernel.Frame
import proofs.«179675_j35948876267749_1_alg».proof.Proof.Gen.KernelIdeal
import proofs.«179675_j35948876267749_1_alg».proof.Proof.Gen.KernelIdeal.Skeleton
import proofs.«179675_j35948876267749_1_alg».proof.Proof.Gen.KernelIdeal.Launch
import proofs.«179675_j35948876267749_1_alg».proof.Proof.Gen.KernelIdeal.Points
import proofs.«179675_j35948876267749_1_alg».proof.Proof.Gen.KernelIdeal.Frame
import proofs.«179675_j35948876267749_1_alg».proof.Proof.Gen.ReferenceIdeal
import proofs.«179675_j35948876267749_1_alg».proof.Proof.Gen.Pre_finite_inputs
import proofs.«179675_j35948876267749_1_alg».proof.Proof.Gen.KernelIdeal.Value
import proofs.«179675_j35948876267749_1_alg».proof.Proof.Gen.ReferenceIdeal.Run
import proofs.«179675_j35948876267749_1_alg».proof.Proof.Gen.ReferenceIdeal.Read
import proofs.«179675_j35948876267749_1_alg».proof.Proof.Blocks
import proofs.«179675_j35948876267749_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is five host operations; its run leaves the arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the three arguments both programs end with the layer of those arguments in
    their result arrays: the kernel tile by tile, the reference in two whole products. -/
theorem algebraic : Cert.algebraic_KernelIdeal_ReferenceIdeal := by
  intro m ρ m' ρ' _ hagree
  refine ⟨_, Cert.KernelIdeal.Ffn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Ffn.reference_is_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
